-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S1x1x4096 : Shape := ⟨3, ![1, 1, 4096]⟩
abbrev S1x512x4096 : Shape := ⟨3, ![1, 512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S1x1x4096, .f32⟩
  | .hbm, ⟨3, _⟩ => ⟨S4x4096x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x1x4096, .f32⟩
  | .local _ .vmem, ⟨3, _⟩ => ⟨S1x512x4096, .f32⟩
  | .local _ .vmem, ⟨4, _⟩ => ⟨S1x512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4096_S1x1x4096 : S4096.ShapeCasts S1x1x4096
  inb_S1x512x4096_S1x512x4096_0_0_0 : ∀ a, (![0, 0, 0] : Fin 3 → Nat) a + S1x512x4096.size a ≤ S1x512x4096.size a
  h_S1x512x4096 : 0 < S1x512x4096.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  broadcasts_S1x1x4096_S1x512x4096 : S1x1x4096.Broadcasts S1x512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S4x4096x4096.size a
  hwx0_0 : ∀ i : grid0.Coords, EltTy.bits .f32 = 32 ∨ (Rect.block (s := S4x4096x4096) S1x512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S1x1x4096.size a
  hwx0_1 : ∀ i : grid0.Coords, EltTy.bits .f32 = 32 ∨ (Rect.block (s := S1x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S4x4096x4096.size a
  hwx0_2 : ∀ i : grid0.Coords, EltTy.bits .f32 = 32 ∨ (Rect.block (s := S4x4096x4096) S1x512x4096.size (cc0_transform_2 i) (hinb0_2 i)).WholeWords (EltTy.packing .f32)

variable [Facts₀]

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S1x1x4096 : Shape := ⟨3, ![1, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S1x1x4096, .f32⟩
  | .hbm, ⟨3, _⟩ => ⟨S4x4096x4096, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)

variable [Facts₀]

class Facts : Prop extends Facts₀ where

variable [Facts]
-- ==== Proof.ColumnScale.lean ====
/-
  The function both programs compute, and the one layout fact the kernel's side needs.

  The operator is a diagonal linear map written as a per-column scale: for an array `x` of shape [4, 4096, 4096]
  and a weight vector `w` of length 4096,
      out[b, s, h] = x[b, s, h] · w[h].
  `colScale x w` is that function, index by index, over any float instance (the product is the instance's own
  multiplication, so at the extended reals it is the exact product, ±∞ included; no law of arithmetic is used
  anywhere in this certificate, only that the two programs read the same two entries and multiply them in the
  same order).

  The kernel does not see `w` as a vector: the host first views it as a [1, 1, 4096] array. Row-major, entry
  (k₀, k₁, k₂) of that view sits at position (k₀·1 + k₁)·4096 + k₂ = k₂ (both leading coordinates are 0), which is
  entry k₂ of the vector: `rowView_apply`.
-/
import Idealize.ShloMosaic.Lib.ValueIdx
import Idealize.ShloMosaic.Lib.Pipeline.Value

noncomputable section

namespace Cert.ColumnScale

open Idealize.ShloMosaic

variable {F : FTy → Type} [FloatOps F]

/-- The array's shape, the weight vector's, and the weight vector's as the kernel is handed it. -/
abbrev Sx : Shape := ⟨3, ![4, 4096, 4096]⟩
abbrev Sw : Shape := ⟨1, ![4096]⟩
abbrev Sw3 : Shape := ⟨3, ![1, 1, 4096]⟩

/-- The column `h` of an entry (b, s, h) of the array, as an index of the weight vector. -/
abbrev colOf (i : Sx.Idx) : Sw.Idx := fun a => match a with
  | ⟨0, _⟩ => ⟨(i 2).val, (i 2).isLt⟩

/-- The last coordinate of an index of the [1, 1, 4096] view, as an index of the weight vector. -/
abbrev lastOf (k : Sw3.Idx) : Sw.Idx := fun a => match a with
  | ⟨0, _⟩ => ⟨(k 2).val, (k 2).isLt⟩

/-- out[b, s, h] = x[b, s, h] · w[h]. -/
def colScale (x : Sx.Idx → Elt F .f32) (w : Sw.Idx → Elt F .f32) : Sx.Idx → Elt F .f32 :=
  fun i => FloatOps.mulf (x i) (w (colOf i))

theorem colScale_apply (x : Sx.Idx → Elt F .f32) (w : Sw.Idx → Elt F .f32) (i : Sx.Idx) :
    colScale x w i = FloatOps.mulf (x i) (w (colOf i)) := rfl

/-- The vector viewed as a [1, 1, 4096] array holds, at (k₀, k₁, k₂), the vector's entry k₂: the two row-major
    positions are equal because k₀ = k₁ = 0. -/
theorem rowView_apply {α : Type} (w : Sw.Idx → α) (h : Sw.ShapeCasts Sw3) (k : Sw3.Idx) :
    shapeCast Sw3 w h k = w (lastOf k) := by
  refine shapeCast_apply w h k (lastOf k) ?_
  rw [Shape.rowMajor_val_one, Shape.rowMajor_val_three]
  have h0 : (k 0).val < 1 := (k 0).isLt
  have h1 : (k 1).val < 1 := (k 1).isLt
  show (k 2).val = ((k 0).val * 1 + (k 1).val) * 4096 + (k 2).val
  omega

end Cert.ColumnScale

end
-- ==== Proof.KernelScale.lean ====
/-
  The kernel computes `colScale`.

  The host views the weight vector as a [1, 1, 4096] array; the kernel then walks a 4 × 8 grid. At the point
  (b, s) it is handed rows 512·s … 512·s + 511 of slab b of the array (a [1, 512, 4096] block), the whole
  [1, 1, 4096] weight view, and the same-placed block of the output; it stretches the weight row over the 512 rows,
  multiplies, and stores the whole block. So the entry (0, r, h) of the block it writes back is
      x[b, 512·s + r, h] · wview[0, 0, h] = x[b, 512·s + r, h] · w[h],
  which is block (b, s) of `colScale x w` (`flushed_eq`). Every entry (b, q, h) of the output lies in exactly the
  block of the point (b, q / 512) (`covered`), so after the run the output array is `colScale x w` (`final`, `run`).
-/
import proofs.«148599_j17918603559163_1_alg».proof.Proof.Gen.KernelIdeal.Value
import proofs.«148599_j17918603559163_1_alg».proof.Proof.ColumnScale
import Idealize.ShloMosaic.Lib.StableHlo.Run

noncomputable section

namespace Cert.KernelIdeal.Scale

open Cert.KernelIdeal Cert.KernelIdeal.Gen Cert.KernelIdeal.Value Cert.ColumnScale
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

theorem origin3 : (![0, 0, 0] : Fin 3 → Nat) = fun _ => 0 := funext fun a => by fin_cases a <;> rfl

/-! ## What the region finds -/

/-- The weight view as the region finds it: the host's reshape of the weight vector as launched. -/
theorem weights_at_entry (c : Dev nD) :
    (V m c main_v0 : S1x1x4096.Idx → Elt F .f32)
      = shapeCast S1x1x4096 (m ((c : Thread nD τ).loc main_arg1)) shapeCasts_S4096_S1x1x4096 := by
  dsimp only [V, hostOps0]
  after_results
  rfl

/-! ## What one grid point writes back -/

/-- The block the body leaves, from the two blocks it loads: entry y is the array block's entry y times the weight
    view's entry in y's column (the generated reading of the body's one store). -/
theorem block_value (x0 : Vec F S1x512x4096 .f32) (x1 : Vec F S1x1x4096 .f32) : out0_2 x0 x1 = E2 x0 x1 := by
  unfold out0_2
  funext y
  rw [canon2_eq]
  simp only [View.ld_unit_zero (S := S1x512x4096) origin3, View.ld_unit_zero (S := S1x1x4096) origin3]

/-- The printed index maps over the 32 points: the array's and the output's blocks sit at the same place and start
    at column 0; the weight view's one block is always the whole view. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_2.index t (2 : Fin 3) = 0
    ∧ win0_1.index t (0 : Fin 3) = 0
    ∧ win0_1.index t (1 : Fin 3) = 0
    ∧ win0_1.index t (2 : Fin 3) = 0 :=
  (by decide +kernel : ∀ t : Fin grid0.N, _)

/-- WHAT POINT t WRITES BACK is block t of `colScale` of the array as the region finds it and the weight vector as
    launched. -/
theorem flushed_eq (c : Dev nD) (t : Fin cfg0.N) :
    (dats m 0 c).flushed 2 t
      = ((cfg0.win 2).blk t).view.read (Elt F) (colScale (V m c main_arg0) (m ((c : Thread nD τ).loc main_arg1))) := by
  rw [flushed2, block_value]
  obtain ⟨e0, e1, e2, e3, e4, e5, e6⟩ := idx_facts t
  funext j
  have hj0 : (j 0).val < 1 := (j 0).isLt
  show FloatOps.mulf (V m c main_arg0 (((cfg0.win 0).blk t).view.emb (ix2_0 j)))
        (V m c main_v0 (((cfg0.win 1).blk t).view.emb (ix2_1 j)))
      = FloatOps.mulf (V m c main_arg0 (((cfg0.win 2).blk t).view.emb j))
        (m ((c : Thread nD τ).loc main_arg1) (colOf (((cfg0.win 2).blk t).view.emb j)))
  have hx : ((cfg0.win 0).blk t).view.emb (ix2_0 j) = ((cfg0.win 2).blk t).view.emb j := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 4096 + 1 * (j 2).val = win0_2.index t (2 : Fin 3) * 4096 + 1 * (j 2).val; omega
  have hw : V m c main_v0 (((cfg0.win 1).blk t).view.emb (ix2_1 j))
      = m ((c : Thread nD τ).loc main_arg1) (colOf (((cfg0.win 2).blk t).view.emb j)) := by
    rw [weights_at_entry, rowView_apply]
    have hcol : lastOf (((cfg0.win 1).blk t).view.emb (ix2_1 j)) = colOf (((cfg0.win 2).blk t).view.emb j) := by
      funext a; apply Fin.ext
      match a with
      | ⟨0, _⟩ => show win0_1.index t (2 : Fin 3) * 4096 + 1 * (j 2).val = win0_2.index t (2 : Fin 3) * 4096 + 1 * (j 2).val; omega
    exact congrArg (m ((c : Thread nD τ).loc main_arg1)) hcol
  rw [hx, hw]

/-! ## The blocks fill the output -/

/-- An entry of the output is in point t's block iff each coordinate is in the block's range on its axis. -/
theorem mem_blk (t : Fin cfg0.N) (i : S4x4096x4096.Idx) :
    i ∈ ((cfg0.win 2).blk t).view.set
      ↔ ∀ a : Fin 3, win0_2.index t a * S1x512x4096.size a ≤ (i a).val
          ∧ (i a).val < win0_2.index t a * S1x512x4096.size a + S1x512x4096.size a := by
  show i ∈ ((View.whole main_v1).slice (win0_2.rect t)).set ↔ _
  rw [View.set_slice_whole, Rect.mem_set_unit]
  exact Iff.rfl

/-- Every (slab, row-block) pair is some point's block index. -/
theorem idx_onto : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

/-- Entry (b, q, h) of the output is in the block of the point (b, q / 512). -/
theorem covered (i : S4x4096x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 4096 ≤ (i 2).val ∧ (i 2).val < win0_2.index t (2 : Fin 3) * 4096 + 4096; omega

/-! ## The output array after the run -/

/-- THE OUTPUT after the run is `colScale` of the two arguments as launched. -/
theorem final (c : Dev nD) :
    (dats m 0 c).arrAt 2 cfg0.N
      = colScale (m ((c : Thread nD τ).loc main_arg0)) (m ((c : Thread nD τ).loc main_arg1)) :=
  ((dats m 0 c).arrAt_eq_of_cover 2 (colScale (V m c main_arg0) (m ((c : Thread nD τ).loc main_arg1)))
    (fun t _ => flushed_eq m c t) covered).trans (by rw [V_main_arg0])

/-- The kernel's run: it terminates, the result is `colScale` of the arguments, the arguments are unchanged. -/
theorem run : θ_run defs (onTc (τ := τ) (main (F := F))) ⟨m, fun _ => 0, ρ⟩ fun r => ∀ c : Dev nD,
      r.2.mem ((c : Thread nD τ).loc main_v1)
        = colScale (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Scale

end
-- ==== Proof.ReferenceScale.lean ====
/-
  The reference computes `colScale`.

  The reference broadcasts the weight vector to [1, 1, 4096] along the last axis, broadcasts that to the array's
  shape along all three axes (the two unit axes stretched), and multiplies the array by it entry by entry. Read at
  an entry (b, s, h): the second broadcast reads (0, 0, h) of the first, the first reads h of the vector; so the
  entry is x[b, s, h] · w[h].
-/
import proofs.«148599_j17918603559163_1_alg».proof.Proof.Gen.ReferenceIdeal.Read
import proofs.«148599_j17918603559163_1_alg».proof.Proof.ColumnScale

noncomputable section

namespace Cert.ReferenceIdeal.Scale

open Cert.ReferenceIdeal Cert.ReferenceIdeal.Read Cert.ColumnScale Idealize.ShloMosaic

variable {F : FTy → Type} [FloatOps F]

/-- Through the two broadcasts an entry (b, s, h) reads the weight vector at its own column h. -/
theorem broadcasts_read_column (i : S4x4096x4096.Idx) : idx_main_v0 (idx_main_v1 i) = colOf i :=
  funext fun a => match a with
    | ⟨0, _⟩ => rfl

/-- The reference's result, as a function of its two arguments, is `colScale`. -/
theorem result_eq (x : S4x4096x4096.Idx → Elt F .f32) (w : S4096.Idx → Elt F .f32) :
    val_main_v2 (F := F) x w = colScale x w := by
  funext i
  rw [val_main_v2_apply, val_main_v1_apply, val_main_v0_apply, broadcasts_read_column, colScale_apply]

end Cert.ReferenceIdeal.Scale

end
-- ==== Proof.lean ====
/- The proof of `Cert.Claim` (proofs.«148599_j17918603559163_1_alg».proof.Defs).

   The operator is a diagonal linear map, out[b, s, h] = x[b, s, h] · w[h] over x : [4, 4096, 4096] and w : [4096]
   (Proof/ColumnScale.lean: `colScale`).
   * The kernel walks a 4 × 8 grid of [1, 512, 4096] blocks, each block multiplied by the weight row stretched over
     its 512 rows; the blocks tile the output, so the output array ends at `colScale x w` (Proof/KernelScale.lean).
   * The reference broadcasts w to the array's shape and multiplies; entry by entry that is `colScale x w` too
     (Proof/ReferenceScale.lean).
   Both sides multiply the same two entries in the same order, so they agree on every extended real, infinite
   entries included: no arithmetic law is used and the finiteness of the inputs is never opened.
   The three frames are the generated ones (the reference's is its run with the result dropped); the idealization
   rewrote nothing, so `preserves` is `True`. -/
import proofs.«148599_j17918603559163_1_alg».proof.Defs
import proofs.«148599_j17918603559163_1_alg».proof.Proof.Gen.Kernel
import proofs.«148599_j17918603559163_1_alg».proof.Proof.Gen.Kernel.Skeleton
import proofs.«148599_j17918603559163_1_alg».proof.Proof.Gen.Kernel.Launch
import proofs.«148599_j17918603559163_1_alg».proof.Proof.Gen.Kernel.Points
import proofs.«148599_j17918603559163_1_alg».proof.Proof.Gen.Kernel.Frame
import proofs.«148599_j17918603559163_1_alg».proof.Proof.Gen.KernelIdeal
import proofs.«148599_j17918603559163_1_alg».proof.Proof.Gen.KernelIdeal.Skeleton
import proofs.«148599_j17918603559163_1_alg».proof.Proof.Gen.KernelIdeal.Launch
import proofs.«148599_j17918603559163_1_alg».proof.Proof.Gen.KernelIdeal.Points
import proofs.«148599_j17918603559163_1_alg».proof.Proof.Gen.KernelIdeal.Frame
import proofs.«148599_j17918603559163_1_alg».proof.Proof.Gen.ReferenceIdeal
import proofs.«148599_j17918603559163_1_alg».proof.Proof.Gen.Pre_finite_inputs
import proofs.«148599_j17918603559163_1_alg».proof.Proof.Gen.KernelIdeal.Value
import proofs.«148599_j17918603559163_1_alg».proof.Proof.Gen.ReferenceIdeal.Run
import proofs.«148599_j17918603559163_1_alg».proof.Proof.Gen.ReferenceIdeal.Read
import proofs.«148599_j17918603559163_1_alg».proof.Proof.ColumnScale
import proofs.«148599_j17918603559163_1_alg».proof.Proof.KernelScale
import proofs.«148599_j17918603559163_1_alg».proof.Proof.ReferenceScale
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on x and w, both programs end with `colScale x w` in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Scale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Scale.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
